-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x1024x128 : Shape := ⟨3, ![64, 1024, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x1024x128 : S_.BroadcastsInDim S64x1024x128 (![] : Fin 0 → Fin S64x1024x128.rank)
  reducesTo_S64x1024x128_S_d0_1_2 : S64x1024x128.ReducesTo [0, 1, 2] S_

variable [Facts]

def fn {F : FTy → Type} [FloatOps F] (main_arg0 : FVec F S64x32x128 .f32) (main_arg1 : FVec F S64x1024x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x1024x128 .f32 := Host.absf main_arg1
  let main_cst_0 : FVec F S_ .f32 := constant S_ .f32 0x7F800000#32
  let main_v5 : FVec F S64x1024x128 .f32 := broadcastInDim S64x1024x128 ![] bcast_S_S64x1024x128 main_cst_0
  let main_v6 : IVec S64x1024x128 1 := cmpf .olt main_v4 main_v5
  let main_c_1 : IVec S_ 1 := constantI S_ 1 1#1
  let main_v7 : IVec S_ 1 := (fun x v => Host.reduce IntOp.andi x v reducesTo_S64x1024x128_S_d0_1_2 h_S_) main_v6 main_c_1
  let main_v8 : IVec S_ 1 := andi main_v3 main_v7
  main_v8
-- ==== Kernel.lean ====
abbrev S64x32x128 : Shape := ⟨3, ![64, 32, 128]⟩
abbrev S64x1024x128 : Shape := ⟨3, ![64, 1024, 128]⟩
abbrev S64x64 : Shape := ⟨2, ![64, 64]⟩
abbrev S8x32x128 : Shape := ⟨3, ![8, 32, 128]⟩
abbrev S64x128x128 : Shape := ⟨3, ![64, 128, 128]⟩
abbrev S8x64 : Shape := ⟨2, ![8, 64]⟩
abbrev S8x32x64 : Shape := ⟨3, ![8, 32, 64]⟩
abbrev S256x128 : Shape := ⟨2, ![256, 128]⟩
abbrev S8192x128 : Shape := ⟨2, ![8192, 128]⟩
abbrev S128x8192 : Shape := ⟨2, ![128, 8192]⟩
abbrev S256x8192 : Shape := ⟨2, ![256, 8192]⟩
abbrev S8x32x64x128 : Shape := ⟨4, ![8, 32, 64, 128]⟩

abbrev nBuf : Space → Nat
  | .hbm => 3
  | .vmem => 7
  | .smem => 0
  | _ => 0

abbrev bufTy : (tb : Table) → Fin (tcTables nBuf tb) → BufTy
  | .hbm, ⟨0, _⟩ => ⟨S64x32x128, .f32⟩
  | .hbm, ⟨1, _⟩ => ⟨S64x1024x128, .f32⟩
  | .hbm, ⟨2, _⟩ => ⟨S64x64, .f32⟩
  | .local _ .vmem, ⟨0, _⟩ => ⟨S8x32x128, .f32⟩
  | .local _ .vmem, ⟨1, _⟩ => ⟨S8x32x128, .f32⟩
  | .local _ .vmem, ⟨2, _⟩ => ⟨S64x128x128, .f32⟩
  | .local _ .vmem, ⟨3, _⟩ => ⟨S64x128x128, .f32⟩
  | .local _ .vmem, ⟨4, _⟩ => ⟨S8x64, .f32⟩
  | .local _ .vmem, ⟨5, _⟩ => ⟨S8x64, .f32⟩
  | .local _ .vmem, ⟨6, _⟩ => ⟨S8x32x64, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x32x64_S8x32x64_0_0_0 : ∀ a, (![0, 0, 0] : Fin 3 → Nat) a + S8x32x64.size a ≤ S8x32x64.size a
  h_S8x32x64 : 0 < S8x32x64.numel
  shapeCasts_S8x32x64_S8x32x64 : S8x32x64.ShapeCasts S8x32x64
  inb_S8x32x128_S8x32x128_0_0_0 : ∀ a, (![0, 0, 0] : Fin 3 → Nat) a + S8x32x128.size a ≤ S8x32x128.size a
  h_S8x32x128 : 0 < S8x32x128.numel
  shapeCasts_S8x32x128_S256x128 : S8x32x128.ShapeCasts S256x128
  bitsLt_bf16_f32 : FTy.bits .bf16 < FTy.bits .f32
  inb_S64x128x128_S64x128x128_0_0_0 : ∀ a, (![0, 0, 0] : Fin 3 → Nat) a + S64x128x128.size a ≤ S64x128x128.size a
  h_S64x128x128 : 0 < S64x128x128.numel
  shapeCasts_S64x128x128_S8192x128 : S64x128x128.ShapeCasts S8192x128
  transposes_S8192x128_p1_0_S128x8192 : S8192x128.Transposes [1, 0] S128x8192
  shapeCasts_S256x8192_S8x32x64x128 : S256x8192.ShapeCasts S8x32x64x128
  reduces_S8x32x64x128_S8x32x64 : S8x32x64x128.Reduces [3] S8x32x64
  reduces_S8x32x64_S8x64 : S8x32x64.Reduces [1] S8x64
  inb_S8x64_S8x64_0_0 : ∀ a, (![0, 0] : Fin 2 → Nat) a + S8x64.size a ≤ S8x64.size a
  h_S8x64 : 0 < S8x64.numel
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S64x1024x128.size a
  hwx0_1 : ∀ i : grid0.Coords, EltTy.bits .f32 = 32 ∨ (Rect.block (s := S64x1024x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x32x128 : Shape := ⟨3, ![64, 32, 128]⟩
abbrev S64x1024x128 : Shape := ⟨3, ![64, 1024, 128]⟩
abbrev S64x1024x64x32 : Shape := ⟨4, ![64, 1024, 64, 32]⟩
abbrev S64x64x32x1024 : Shape := ⟨4, ![64, 64, 32, 1024]⟩
abbrev S_ : Shape := ⟨0, ![]⟩
abbrev S64x64x32 : Shape := ⟨3, ![64, 64, 32]⟩
abbrev S64x64 : Shape := ⟨2, ![64, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x1024x128, .f32⟩
  | .hbm, ⟨2, _⟩ => ⟨S64x1024x64x32, .f32⟩
  | .hbm, ⟨3, _⟩ => ⟨S64x64x32x1024, .f32⟩
  | .hbm, ⟨4, _⟩ => ⟨S_, .f32⟩
  | .hbm, ⟨5, _⟩ => ⟨S64x64x32, .f32⟩
  | .hbm, ⟨6, _⟩ => ⟨S_, .f32⟩
  | .hbm, ⟨7, _⟩ => ⟨S64x64, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S64x1024x64x32_S64x64x32x1024_2_0_3_1 : S64x1024x64x32.Transposes [2, 0, 3, 1] S64x64x32x1024
  reducesTo_S64x64x32x1024_S64x64x32_d3 : S64x64x32x1024.ReducesTo [3] S64x64x32
  h_S_ : 0 < S_.numel
  reducesTo_S64x64x32_S64x64_d2 : S64x64x32.ReducesTo [2] S64x64
  dot_S64x1024x128_S64x32x128_S64x1024x64x32_2_2_01_01_n_n_wf : DotDims.WF S64x1024x128 S64x32x128 S64x1024x64x32 [2] [2] [0, 1] [0, 1] [] []

variable [Facts₀]

def dot_S64x1024x128_S64x32x128_S64x1024x64x32_2_2_01_01_n_n : DotDims S64x1024x128 S64x32x128 S64x1024x64x32 where
  lhsContracting := [2]
  rhsContracting := [2]
  lhsNonContracting := [0, 1]
  rhsNonContracting := [0, 1]
  lhsBatch := []
  rhsBatch := []
  wf := dot_S64x1024x128_S64x32x128_S64x1024x64x32_2_2_01_01_n_n_wf

class Facts : Prop extends Facts₀ where

variable [Facts]
-- ==== Proof.Pieces.lean ====
/-
  What each of the body's three control cases leaves behind, as values of what it found.

  The scratch holds, for each (query of the block, query token, document), a running maximum. At the first tile of a document
  walk the body resets the scratch to the start value, reads it back and stores the update of that; at every other tile it
  stores the update of what the scratch held; at the last tile it also stores, into the output block, the sum over the query
  tokens of the scratch it has just updated. Each store writes its whole buffer at offset zero, so what a buffer ends holding
  is its last store's value, and a load after a store in the same run reads that store's value.
-/
import proofs.«102953_j12077448036546_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tiles

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile: the scratch ends at the update of the start value (the reset, read back) by this tile. -/
theorem scratch_first (c : Dev nD) (i : grid0.Coords) (arg2 : Memref sig .tc .vmem S8x32x128 .f32) (harg2 : arg2.IsWhole) (arg3 : Memref sig .tc .vmem S64x128x128 .f32) (harg3 : arg3.IsWhole) (arg4 : Memref sig .tc .vmem S8x64 .f32) (harg4 : arg4.IsWhole) (arg5 : Memref sig .tc .vmem S8x32x64 .f32) (harg5 : arg5.IsWhole) (hc0 : cond0_0 i) (hc1 : ¬cond0_1 i)
    (x0 : Vec F S8x32x128 .f32) (x1 : Vec F S64x128x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x32x64) hz3, View.readCov_unit_zero (S := S8x32x64) _ hz3]
  simp only [View.readAt_eq_ld, harg2.read_unread, harg3.read_unread, harg5.read_unread, View.ld_unit_zero (S := S8x32x128) hz3, View.ld_unit_zero (S := S64x128x128) hz3, View.ld_unit_zero (S := S8x32x64) hz3]

/-- A middle tile: the scratch ends at the update, by this tile, of what it held. -/
theorem scratch_middle (c : Dev nD) (i : grid0.Coords) (arg2 : Memref sig .tc .vmem S8x32x128 .f32) (harg2 : arg2.IsWhole) (arg3 : Memref sig .tc .vmem S64x128x128 .f32) (harg3 : arg3.IsWhole) (arg4 : Memref sig .tc .vmem S8x64 .f32) (harg4 : arg4.IsWhole) (arg5 : Memref sig .tc .vmem S8x32x64 .f32) (harg5 : arg5.IsWhole) (hc0 : ¬cond0_0 i) (hc1 : ¬cond0_1 i)
    (x0 : Vec F S8x32x128 .f32) (x1 : Vec F S64x128x128 .f32) (xs0 : Vec F S8x32x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz3]
  simp only [View.readAt_eq_ld, harg2.read_unread, harg3.read_unread, harg5.read_unread, View.ld_unit_zero (S := S8x32x128) hz3, View.ld_unit_zero (S := S64x128x128) hz3, View.ld_unit_zero (S := S8x32x64) hz3]

/-- The last tile: the scratch ends at the update, by this tile, of what it held, -/
theorem scratch_last (c : Dev nD) (i : grid0.Coords) (arg2 : Memref sig .tc .vmem S8x32x128 .f32) (harg2 : arg2.IsWhole) (arg3 : Memref sig .tc .vmem S64x128x128 .f32) (harg3 : arg3.IsWhole) (arg4 : Memref sig .tc .vmem S8x64 .f32) (harg4 : arg4.IsWhole) (arg5 : Memref sig .tc .vmem S8x32x64 .f32) (harg5 : arg5.IsWhole) (hc0 : ¬cond0_0 i) (hc1 : cond0_1 i)
    (x0 : Vec F S8x32x128 .f32) (x1 : Vec F S64x128x128 .f32) (xs0 : Vec F S8x32x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.ld_unit_zero (S := S8x32x128) hz3, View.ld_unit_zero (S := S64x128x128) hz3, View.ld_unit_zero (S := S8x32x64) hz3]

/-- and the output block at the sum over the query tokens of that updated scratch. -/
theorem block_last (c : Dev nD) (i : grid0.Coords) (arg2 : Memref sig .tc .vmem S8x32x128 .f32) (harg2 : arg2.IsWhole) (arg3 : Memref sig .tc .vmem S64x128x128 .f32) (harg3 : arg3.IsWhole) (arg4 : Memref sig .tc .vmem S8x64 .f32) (harg4 : arg4.IsWhole) (arg5 : Memref sig .tc .vmem S8x32x64 .f32) (harg5 : arg5.IsWhole) (hc0 : ¬cond0_0 i) (hc1 : cond0_1 i)
    (x0 : Vec F S8x32x128 .f32) (x1 : Vec F S64x128x128 .f32) (xs0 : Vec F S8x32x64 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readCov_unit_zero (S := S8x32x64) _ hz3, View.readAt_eq_ld, harg2.read_unread, harg3.read_unread, harg5.read_unread, View.ld_unit_zero (S := S8x32x128) hz3, View.ld_unit_zero (S := S64x128x128) hz3, View.ld_unit_zero (S := S8x32x64) hz3]

end Cert.KernelIdeal.Tiles

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Spec.lean ====
/-
  The mathematics of the certificate, free of both programs.

  A query is 32 tokens and a document 1024 tokens, each token a vector of 128 extended reals. The similarity of a query
  token and a document token is their inner product; the score of query b against document c is the sum, over the query's
  tokens n, of the largest similarity token n has with any token of the document:

      score b c = sum over n of ( max over s of ( sum over d of q[b, n, d] * p[c, s, d] ) ).

  One side takes each maximum over all 1024 document tokens at once; the other walks the document in eight tiles of 128
  tokens, keeping a running maximum. A maximum over a finite family, started from some value, is known by what lies above
  it: it is below x exactly when the start and every member are. Stated that way the running maximum after k tiles is "the
  largest over the tokens before position 128 k", one more tile moves the bound by 128, and after eight tiles the bound is the
  whole document. The start value (the pattern of negative infinity) is the same word on both sides and is never evaluated.
-/
import Idealize.ShloMosaic.PureOps.Ideal.Laws
import Idealize.ShloMosaic.Lib.ValueIdx
import Mathlib.Data.Finset.Fold

noncomputable section

namespace Cert.MaxSim

open Idealize.ShloMosaic Idealize.ShloMosaic.ValueIdx
open scoped BigOperators

/-- The value every maximum starts from: f32's negative infinity as a pattern, read at the extended reals. -/
abbrev start : EReal := Ideal.ofBits .f32 0xFF800000#32

/-- The inner product of query token (b, n) and document token (c, s). -/
def sim (q : (⟨3, ![64, 32, 128]⟩ : Shape).Idx → EReal) (p : (⟨3, ![64, 1024, 128]⟩ : Shape).Idx → EReal)
    (b : Fin 64) (n : Fin 32) (c : Fin 64) (s : Fin 1024) : EReal :=
  ∑ d : Fin 128, q (ix3 b n d) * p (ix3 c s d)

/-- The largest similarity of query token (b, n) with a token of document c. -/
def best (q : (⟨3, ![64, 32, 128]⟩ : Shape).Idx → EReal) (p : (⟨3, ![64, 1024, 128]⟩ : Shape).Idx → EReal)
    (b : Fin 64) (n : Fin 32) (c : Fin 64) : EReal :=
  (Finset.univ : Finset (Fin 1024)).fold max start (sim q p b n c)

/-- The score of query b against document c. -/
def score (q : (⟨3, ![64, 32, 128]⟩ : Shape).Idx → EReal) (p : (⟨3, ![64, 1024, 128]⟩ : Shape).Idx → EReal)
    (b c : Fin 64) : EReal :=
  ∑ n : Fin 32, best q p b n c

/-- The whole result: the score at every pair (query, document). -/
def scores (q : (⟨3, ![64, 32, 128]⟩ : Shape).Idx → EReal) (p : (⟨3, ![64, 1024, 128]⟩ : Shape).Idx → EReal) :
    (⟨2, ![64, 64]⟩ : Shape).Idx → EReal :=
  fun j => score q p (j 0) (j 1)

/-! ## A maximum known by what lies above it -/

/-- Two extended reals with the same upper bounds are equal. -/
theorem eq_of_forall_le_iff {M M' : EReal} (h : ∀ x, M ≤ x ↔ M' ≤ x) : M = M' :=
  le_antisymm ((h M').2 le_rfl) ((h M).1 le_rfl)

/-- The maximum of a finite family from a start value is below x exactly when the start and every member are. -/
theorem foldMax_le_iff {ι : Type} [Fintype ι] (a : EReal) (f : ι → EReal) (x : EReal) :
    (Finset.univ : Finset ι).fold max a f ≤ x ↔ a ≤ x ∧ ∀ i, f i ≤ x := by
  rw [Finset.fold_max_le]
  exact ⟨fun h => ⟨h.1, fun i => h.2 i (Finset.mem_univ i)⟩, fun h => ⟨h.1, fun i _ => h.2 i⟩⟩

/-- M is the largest of the start value and f over the document tokens before position bound. -/
def IsMaxBefore (f : Fin 1024 → EReal) (bound : ℕ) (M : EReal) : Prop :=
  ∀ x, M ≤ x ↔ start ≤ x ∧ ∀ s : Fin 1024, s.val < bound → f s ≤ x

/-- Before any token the running maximum is the start value. -/
theorem isMaxBefore_zero (f : Fin 1024 → EReal) : IsMaxBefore f 0 start :=
  fun _ => ⟨fun h => ⟨h, fun s hs => absurd hs (Nat.not_lt_zero _)⟩, fun h => h.1⟩

/-- The maximum of tile k: of the 128 tokens from position 128 k on. -/
def tileMax (f : Fin 1024 → EReal) (k : ℕ) (hk : k < 8) : EReal :=
  (Finset.univ : Finset (Fin 128)).fold max start (fun s' => f ⟨128 * k + s'.val, by have := s'.isLt; omega⟩)

/-- One more tile: the larger of the running maximum before tile k and tile k's maximum is the running maximum before
    tile k + 1. -/
theorem IsMaxBefore.step {f : Fin 1024 → EReal} {k : ℕ} (hk : k < 8) {M : EReal} (h : IsMaxBefore f (128 * k) M) :
    IsMaxBefore f (128 * (k + 1)) (max M (tileMax f k hk)) := by
  intro x
  rw [max_le_iff, h x, tileMax, foldMax_le_iff]
  constructor
  · rintro ⟨⟨ha, h1⟩, _, h2⟩
    refine ⟨ha, fun s hs => ?_⟩
    by_cases hlt : s.val < 128 * k
    · exact h1 s hlt
    · have e : (⟨128 * k + (⟨s.val - 128 * k, by omega⟩ : Fin 128).val, by have := s.isLt; omega⟩ : Fin 1024) = s :=
        Fin.ext (by show 128 * k + (s.val - 128 * k) = s.val; omega)
      have := h2 ⟨s.val - 128 * k, by omega⟩
      rwa [e] at this
  · rintro ⟨ha, h1⟩
    exact ⟨⟨ha, fun s hs => h1 s (by omega)⟩, ha, fun s' => h1 _ (by show 128 * k + s'.val < 128 * (k + 1); have := s'.isLt; omega)⟩

/-- After the eighth tile the running maximum is the maximum over the whole document. -/
theorem IsMaxBefore.eq_fold {f : Fin 1024 → EReal} {M : EReal} (h : IsMaxBefore f 1024 M) :
    M = (Finset.univ : Finset (Fin 1024)).fold max start f :=
  eq_of_forall_le_iff fun x => by
    rw [h x, foldMax_le_iff]
    exact ⟨fun h' => ⟨h'.1, fun s => h'.2 s s.isLt⟩, fun h' => ⟨h'.1, fun s _ => h'.2 s⟩⟩

end Cert.MaxSim

end
-- ==== Proof.Payload.lean ====
/-
  What one grid point's arithmetic computes, entry by entry, over the extended reals.

  At a grid point the body holds a block q of 8 queries (32 tokens each) and a tile p of 128 tokens of each of the 64
  documents. It lays the query tokens out as the 256 rows of a matrix and the document tokens as the 8192 columns of another,
  multiplies them (each entry an inner product over the 128 coordinates), and for each (query, token, document) keeps the
  largest product over the tile's 128 tokens, joined with what the scratch held before. Row 32 b + n is query b's token n
  and column 128 c + s is document c's token s of the tile, so the entry (b, n, c) of the update is

      max ( held (b, n, c),  max over s < 128 of  sum over d of q (b, n, d) * p (c, s, d) ).

  The narrowing of both operands to a shorter float format before the product is the identity on the extended reals. At the
  last tile the body sums the scratch over the 32 tokens: entry (b, c) is the sum over n of the scratch at (b, n, c). At the
  first tile the scratch is reset to the start value at every entry.
-/
import proofs.«102953_j12077448036546_1_alg».proof.Proof.Gen.KernelIdeal.Skeleton
import proofs.«102953_j12077448036546_1_alg».proof.Proof.LibPlainDot
import proofs.«102953_j12077448036546_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Tiles

open Cert.KernelIdeal Cert.KernelIdeal.Gen

/-- The reset stores the start value at every entry. -/
theorem reset_apply (y : S8x32x64.Idx) : k0_pay1 (F := Ideal) y = Cert.MaxSim.start := by
  unfold k0_pay1
  rw [shapeCast_self]
  rfl

/-- Row 32 b + n of the query matrix is query b's token n. -/
theorem queryRow_apply (v3 : Vec Ideal S8x32x128 .f32) (b : Fin 8) (n : Fin 32) (d : Fin 128) :
    shapeCast S256x128 v3 shapeCasts_S8x32x128_S256x128 (ix2 (⟨32 * b.val + n.val, by have := b.isLt; have := n.isLt; omega⟩ : Fin 256) d)
      = v3 (ix3 b n d) :=
  shapeCast_apply v3 _ _ _ (by
    rw [Shape.rowMajor_val_three, Shape.rowMajor_val_two]
    show (b.val * 32 + n.val) * 128 + d.val = (32 * b.val + n.val) * 128 + d.val
    omega)

/-- Row 128 c + s of the document matrix is document c's token s of the tile. -/
theorem docRow_apply (v6 : Vec Ideal S64x128x128 .f32) (c : Fin 64) (s : Fin 128) (d : Fin 128) :
    shapeCast S8192x128 v6 shapeCasts_S64x128x128_S8192x128 (ix2 (⟨128 * c.val + s.val, by have := c.isLt; have := s.isLt; omega⟩ : Fin 8192) d)
      = v6 (ix3 c s d) :=
  shapeCast_apply v6 _ _ _ (by
    rw [Shape.rowMajor_val_three, Shape.rowMajor_val_two]
    show (c.val * 128 + s.val) * 128 + d.val = (128 * c.val + s.val) * 128 + d.val
    omega)

/-- The transposed document matrix at (d, column) is the document matrix at (column, d). -/
theorem docCol_apply (v8 : FVec Ideal S8192x128 .bf16) (col : Fin 8192) (d : Fin 128) :
    transpose S128x8192 [1, 0] v8 transposes_S8192x128_p1_0_S128x8192 (ix2 d col) = v8 (ix2 col d) :=
  transpose_apply [1, 0] v8 _ (ix2 d col) (ix2 col d) (fun a => match a with
    | ⟨0, _⟩ => rfl
    | ⟨1, _⟩ => rfl)

/-- The product matrix at (row 32 b + n, column 128 c + s), laid out over (query, token, document, tile token). -/
theorem productEntry_apply (v10 : FVec Ideal S256x8192 .f32) (b : Fin 8) (n : Fin 32) (c : Fin 64) (s : Fin 128) :
    shapeCast S8x32x64x128 v10 shapeCasts_S256x8192_S8x32x64x128 (ix4 b n c s)
      = v10 (ix2 (⟨32 * b.val + n.val, by have := b.isLt; have := n.isLt; omega⟩ : Fin 256)
                 (⟨128 * c.val + s.val, by have := c.isLt; have := s.isLt; omega⟩ : Fin 8192)) :=
  shapeCast_apply v10 _ _ _ (by
    rw [Shape.rowMajor_val_two, Shape.rowMajor_val_four]
    show (32 * b.val + n.val) * 8192 + (128 * c.val + s.val) = ((b.val * 32 + n.val) * 64 + c.val) * 128 + s.val
    omega)

/-- The product matrix at (row 32 b + n, column 128 c + s) is the inner product of query b's token n with document c's
    token s of the tile: the narrowings are the identity and the product contracts the 128 coordinates. -/
theorem product_apply (v3 : Vec Ideal S8x32x128 .f32) (v6 : Vec Ideal S64x128x128 .f32)
    (b : Fin 8) (n : Fin 32) (c : Fin 64) (s : Fin 128) :
    matmul (F := Ideal) dot_S256x128_S128x8192_S256x8192_1_0_0_1_n_n none
        (truncf (F := Ideal) .bf16 (shapeCast S256x128 v3 shapeCasts_S8x32x128_S256x128 : FVec Ideal S256x128 .f32) bitsLt_bf16_f32)
        (transpose S128x8192 [1, 0]
          (truncf (F := Ideal) .bf16 (shapeCast S8192x128 v6 shapeCasts_S64x128x128_S8192x128 : FVec Ideal S8192x128 .f32) bitsLt_bf16_f32 : FVec Ideal S8192x128 .bf16)
          transposes_S8192x128_p1_0_S128x8192 : FVec Ideal S128x8192 .bf16)
        (constant (F := Ideal) S256x8192 .f32 0x00000000#32)
        (ix2 (⟨32 * b.val + n.val, by have := b.isLt; have := n.isLt; omega⟩ : Fin 256)
             (⟨128 * c.val + s.val, by have := c.isLt; have := s.isLt; omega⟩ : Fin 8192))
      = ∑ d : Fin 128, v3 (ix3 b n d) * v6 (ix3 c s d) := by
  refine (Idealize.ShloMosaic.PlainDot.matmul_zero_apply dot_S256x128_S128x8192_S256x8192_1_0_0_1_n_n
    rfl rfl rfl rfl rfl rfl none _ _ _ _).trans ?_
  refine Finset.sum_congr rfl fun d _ => ?_
  rw [truncf_apply, queryRow_apply, docCol_apply, truncf_apply, docRow_apply]

/-- The update at the entry (b, n, c): what the scratch held there, joined with the largest inner product of query b's token n
    with the tile's 128 tokens of document c. -/
theorem update_apply (v3 : Vec Ideal S8x32x128 .f32) (v6 : Vec Ideal S64x128x128 .f32) (v13 : Vec Ideal S8x32x64 .f32)
    (b : Fin 8) (n : Fin 32) (c : Fin 64) :
    k0_pay2 v3 v6 v13 (ix3 b n c)
      = max (v13 (ix3 b n c))
          ((Finset.univ : Finset (Fin 128)).fold max Cert.MaxSim.start
            (fun s => ∑ d : Fin 128, v3 (ix3 b n d) * v6 (ix3 c s d))) := by
  unfold k0_pay2
  dsimp only
  rw [shapeCast_self]
  refine (maximumf_apply _ _ _).trans (congrArg (max _) ?_)
  refine (Ideal.multiReduction_maximumf_single _ _ _ _ _ _).trans ?_
  show (Finset.univ : Finset (Fin 128)).fold max Cert.MaxSim.start _ = _
  refine congrArg (fun f => (Finset.univ : Finset (Fin 128)).fold max Cert.MaxSim.start f) (funext fun s => ?_)
  show shapeCast S8x32x64x128 _ shapeCasts_S256x8192_S8x32x64x128 (reduces_S8x32x64x128_S8x32x64.lift (ix3 b n c) s) = _
  rw [show reduces_S8x32x64x128_S8x32x64.lift (ix3 b n c) s = ix4 b n c s from
    funext fun a => Fin.ext (by match a with | ⟨0, _⟩ => rfl | ⟨1, _⟩ => rfl | ⟨2, _⟩ => rfl | ⟨3, _⟩ => rfl)]
  exact (productEntry_apply _ b n c s).trans (product_apply v3 v6 b n c s)

/-- The last tile's sum at the entry (b, c): over the 32 query tokens, the scratch at (b, n, c). -/
theorem tokenSum_apply (v21 : Vec Ideal S8x32x64 .f32) (b : Fin 8) (c : Fin 64) :
    k0_pay3 v21 (ix2 b c) = ∑ n : Fin 32, v21 (ix3 b n c) := by
  unfold k0_pay3
  dsimp only
  refine (Ideal.multiReduction_add_single _ _ _ _ _ _).trans ?_
  show ∑ n : Fin 32, v21 (reduces_S8x32x64_S8x64.lift (ix2 b c) n) = _
  exact Finset.sum_congr rfl fun n _ => congrArg v21
    (funext fun a => Fin.ext (by match a with | ⟨0, _⟩ => rfl | ⟨1, _⟩ => rfl | ⟨2, _⟩ => rfl))

end Cert.KernelIdeal.Tiles

end
-- ==== Proof.Running.lean ====
/-
  The scratch across the grid: a running maximum, by induction on the grid point.

  The grid is 8 blocks of 8 queries by 8 tiles of 128 document tokens, walked tile by tile within a query block: point t works
  on queries 8 (t / 8) .. 8 (t / 8) + 7 and on tokens 128 (t % 8) .. 128 (t % 8) + 127 of every document. The query block
  read at (b, n, d) is the query array at (8 (t / 8) + b, n, d), and the document tile read at (c, s, d) is the document array
  at (c, 128 (t % 8) + s, d).

  So after point t the scratch entry (b, n, c) is the largest similarity of token n of query 8 (t / 8) + b with the tokens of
  document c before position 128 (t % 8 + 1): at the first tile of a walk the reset makes it the start value joined with the
  first tile's maximum, and every later tile joins its own maximum to what the point before left, for the same query block.
  After the eighth tile the bound is the whole document, and the output block written back there holds, at (b, c), the sum over
  the query tokens of those maxima: the score.
-/
import proofs.«102953_j12077448036546_1_alg».proof.Proof.Gen.KernelIdeal.Frame
import proofs.«102953_j12077448036546_1_alg».proof.Proof.Pieces
import proofs.«102953_j12077448036546_1_alg».proof.Proof.Payload
import proofs.«102953_j12077448036546_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open scoped BigOperators

namespace Cert.KernelIdeal.Tiles

open Cert.KernelIdeal Cert.KernelIdeal.Gen Cert.MaxSim

variable (m : (ℓ : Loc nD τ sig) → Buf (Elt Ideal) ℓ)

/-- The query array and the document array, as the region finds them. -/
abbrev qarr (c : Dev nD) : Vec Ideal S64x32x128 .f32 := V m c main_arg0
abbrev parr (c : Dev nD) : Vec Ideal S64x1024x128 .f32 := V m c main_arg1
/-- The block of 8 queries and the tile of 128 tokens of every document that point t works on. -/
abbrev qblk (c : Dev nD) (t : Fin cfg0.N) : Vec Ideal S8x32x128 .f32 := iblk m c 0 t
abbrev pblk (c : Dev nD) (t : Fin cfg0.N) : Vec Ideal S64x128x128 .f32 := iblk m c 1 t

/-- The query that row b of point k's query block is. -/
abbrev qrow (k : ℕ) (hk : k < cfg0.N) (b : Fin 8) : Fin 64 :=
  ⟨8 * (k / 8) + b.val, by have hN : cfg0.N = 64 := N_0; have := b.isLt; omega⟩

/-- The printed index maps, decided over the grid: the query block moves with t / 8 along the queries, the document tile with
    t % 8 along the tokens, and the output block with t / 8 along the queries. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = t.val / 8 ∧ win0_2.index t (1 : Fin 2) = 0 :=
  (by decide +kernel : ∀ t : Fin grid0.N, _)

/-- The query block at (b, n, d) is the query array at (8 (t / 8) + b, n, d). -/
theorem qblk_apply (c : Dev nD) (t : Fin cfg0.N) (b : Fin 8) (n : Fin 32) (d : Fin 128) :
    qblk m c t (ix3 b n d) = qarr m c (ix3 (qrow t.val t.isLt b) n d) := by
  obtain ⟨e0, e1, e2, -⟩ := idx_facts t
  show V m c main_arg0 (((cfg0.win 0).blk t).view.emb (ix3 b n d)) = V m c main_arg0 _
  refine congrArg _ (funext fun a => Fin.ext ?_)
  match a with
  | ⟨0, _⟩ => show win0_0.index t (0 : Fin 3) * 8 + 1 * b.val = 8 * (t.val / 8) + b.val; omega
  | ⟨1, _⟩ => show win0_0.index t (1 : Fin 3) * 32 + 1 * n.val = n.val; omega
  | ⟨2, _⟩ => show win0_0.index t (2 : Fin 3) * 128 + 1 * d.val = d.val; omega

/-- The document tile at (c', s, d) is the document array at (c', 128 (t % 8) + s, d). -/
theorem pblk_apply (c : Dev nD) (t : Fin cfg0.N) (c' : Fin 64) (s : Fin 128) (d : Fin 128) :
    pblk m c t (ix3 c' s d)
      = parr m c (ix3 c' (⟨128 * (t.val % 8) + s.val, by have := s.isLt; omega⟩ : Fin 1024) d) := by
  obtain ⟨-, -, -, e0, e1, e2, -⟩ := idx_facts t
  show V m c main_arg1 (((cfg0.win 1).blk t).view.emb (ix3 c' s d)) = V m c main_arg1 _
  refine congrArg _ (funext fun a => Fin.ext ?_)
  match a with
  | ⟨0, _⟩ => show win0_1.index t (0 : Fin 3) * 64 + 1 * c'.val = c'.val; omega
  | ⟨1, _⟩ => show win0_1.index t (1 : Fin 3) * 128 + 1 * s.val = 128 * (t.val % 8) + s.val; omega
  | ⟨2, _⟩ => show win0_1.index t (2 : Fin 3) * 128 + 1 * d.val = d.val; omega

/-- The tile's maximum the body computes at point t for (b, n, c') is the maximum of tile t % 8 of the similarities of token n
    of query 8 (t / 8) + b with document c'. -/
theorem tile_eq (c : Dev nD) (t : Fin cfg0.N) (b : Fin 8) (n : Fin 32) (c' : Fin 64) :
    (Finset.univ : Finset (Fin 128)).fold max start
        (fun s => ∑ d : Fin 128, qblk m c t (ix3 b n d) * pblk m c t (ix3 c' s d))
      = tileMax (sim (qarr m c) (parr m c) (qrow t.val t.isLt b) n c') (t.val % 8) (Nat.mod_lt _ (by decide)) := by
  unfold tileMax sim
  refine congrArg (fun f => (Finset.univ : Finset (Fin 128)).fold max start f) (funext fun s => ?_)
  refine Finset.sum_congr rfl fun d _ => ?_
  rw [qblk_apply, pblk_apply]

/-! ## What a point leaves, by its place in the walk -/

/-- At the first tile of a walk the scratch ends at the update of the start value. -/
theorem scratchAt_first (c : Dev nD) (k : ℕ) (hk : k < cfg0.N) (h0 : k % 8 = 0) :
    (outsAt0 m c k hk).2 = k0_pay2 (qblk m c ⟨k, hk⟩) (pblk m c ⟨k, hk⟩) (k0_pay1 (F := Ideal)) := by
  have h1 : ¬k % 8 = 7 := by omega
  rw [show outsAt0 m c k hk = _ from outsAt0_A m c ⟨k, hk⟩ h0 h1]
  dsimp only
  exact scratch_first (F := Ideal) c (grid0.coords ⟨k, hk⟩) (ms0_0 ⟨k, hk⟩) (hs0_0 ⟨k, hk⟩) (ms0_1 ⟨k, hk⟩) (hs0_1 ⟨k, hk⟩)
    (ms0_2 ⟨k, hk⟩) (hs0_2 ⟨k, hk⟩) scM0_0 (Memref.isWhole_whole _) ((hcond0_0 ⟨k, hk⟩).mpr h0)
    (fun h => h1 ((hcond0_1 ⟨k, hk⟩).mp h)) (iblk m c 0 ⟨k, hk⟩) (iblk m c 1 ⟨k, hk⟩)

/-- At every later tile the scratch ends at the update of what the point before left. -/
theorem scratchAt_later (c : Dev nD) (k : ℕ) (hk : k < cfg0.N) (h0 : ¬k % 8 = 0) :
    (outsAt0 m c k hk).2
      = k0_pay2 (qblk m c ⟨k, hk⟩) (pblk m c ⟨k, hk⟩) (outsAt0 m c (k - 1) (Nat.lt_of_le_of_lt (Nat.sub_le _ _) hk)).2 := by
  by_cases h1 : k % 8 = 7
  · rw [show outsAt0 m c k hk = _ from outsAt0_C m c ⟨k, hk⟩ h0 h1]
    dsimp only
    exact scratch_last (F := Ideal) c (grid0.coords ⟨k, hk⟩) (ms0_0 ⟨k, hk⟩) (hs0_0 ⟨k, hk⟩) (ms0_1 ⟨k, hk⟩) (hs0_1 ⟨k, hk⟩)
      (ms0_2 ⟨k, hk⟩) (hs0_2 ⟨k, hk⟩) scM0_0 (Memref.isWhole_whole _) (fun h => h0 ((hcond0_0 ⟨k, hk⟩).mp h))
      ((hcond0_1 ⟨k, hk⟩).mpr h1) (iblk m c 0 ⟨k, hk⟩) (iblk m c 1 ⟨k, hk⟩)
      (outsAt0 m c (k - 1) (Nat.lt_of_le_of_lt (Nat.sub_le _ _) hk)).2
  · rw [show outsAt0 m c k hk = _ from outsAt0_B m c ⟨k, hk⟩ h0 h1]
    dsimp only
    exact scratch_middle (F := Ideal) c (grid0.coords ⟨k, hk⟩) (ms0_0 ⟨k, hk⟩) (hs0_0 ⟨k, hk⟩) (ms0_1 ⟨k, hk⟩) (hs0_1 ⟨k, hk⟩)
      (ms0_2 ⟨k, hk⟩) (hs0_2 ⟨k, hk⟩) scM0_0 (Memref.isWhole_whole _) (fun h => h0 ((hcond0_0 ⟨k, hk⟩).mp h))
      (fun h => h1 ((hcond0_1 ⟨k, hk⟩).mp h)) (iblk m c 0 ⟨k, hk⟩) (iblk m c 1 ⟨k, hk⟩)
      (outsAt0 m c (k - 1) (Nat.lt_of_le_of_lt (Nat.sub_le _ _) hk)).2

/-- At the last tile of a walk the output block ends at the sum, over the query tokens, of the scratch that point leaves. -/
theorem blockAt_last (c : Dev nD) (k : ℕ) (hk : k < cfg0.N) (h1 : k % 8 = 7) :
    (outsAt0 m c k hk).1 = k0_pay3 ((outsAt0 m c k hk).2) := by
  have h0 : ¬k % 8 = 0 := by omega
  rw [show outsAt0 m c k hk = _ from outsAt0_C m c ⟨k, hk⟩ h0 h1]
  dsimp only
  exact (block_last (F := Ideal) c (grid0.coords ⟨k, hk⟩) (ms0_0 ⟨k, hk⟩) (hs0_0 ⟨k, hk⟩) (ms0_1 ⟨k, hk⟩) (hs0_1 ⟨k, hk⟩)
      (ms0_2 ⟨k, hk⟩) (hs0_2 ⟨k, hk⟩) scM0_0 (Memref.isWhole_whole _) (fun h => h0 ((hcond0_0 ⟨k, hk⟩).mp h))
      ((hcond0_1 ⟨k, hk⟩).mpr h1) (iblk m c 0 ⟨k, hk⟩) (iblk m c 1 ⟨k, hk⟩)
      (outsAt0 m c (k - 1) (Nat.lt_of_le_of_lt (Nat.sub_le _ _) hk)).2).trans
    (congrArg k0_pay3 (scratch_last (F := Ideal) c (grid0.coords ⟨k, hk⟩) (ms0_0 ⟨k, hk⟩) (hs0_0 ⟨k, hk⟩) (ms0_1 ⟨k, hk⟩) (hs0_1 ⟨k, hk⟩)
      (ms0_2 ⟨k, hk⟩) (hs0_2 ⟨k, hk⟩) scM0_0 (Memref.isWhole_whole _) (fun h => h0 ((hcond0_0 ⟨k, hk⟩).mp h))
      ((hcond0_1 ⟨k, hk⟩).mpr h1) (iblk m c 0 ⟨k, hk⟩) (iblk m c 1 ⟨k, hk⟩)
      (outsAt0 m c (k - 1) (Nat.lt_of_le_of_lt (Nat.sub_le _ _) hk)).2).symm)

/-! ## The running maximum -/

/-- After point k the scratch entry (b, n, c') is the largest similarity of token n of query 8 (k / 8) + b with the tokens of
    document c' before position 128 (k % 8 + 1). -/
theorem scratch_isMax (c : Dev nD) : ∀ (k : ℕ) (hk : k < cfg0.N) (b : Fin 8) (n : Fin 32) (c' : Fin 64),
    IsMaxBefore (sim (qarr m c) (parr m c) (qrow k hk b) n c') (128 * (k % 8 + 1)) ((outsAt0 m c k hk).2 (ix3 b n c')) := by
  intro k
  induction k using Nat.strong_induction_on with
  | _ k ih =>
    intro hk b n c'
    have hN : cfg0.N = 64 := N_0
    have hlt : k % 8 < 8 := Nat.mod_lt _ (by decide)
    by_cases h0 : k % 8 = 0
    · rw [scratchAt_first m c k hk h0, update_apply, reset_apply, tile_eq m c ⟨k, hk⟩ b n c']
      refine IsMaxBefore.step hlt ?_
      rw [show 128 * (k % 8) = 0 by omega]
      exact isMaxBefore_zero _
    · rw [scratchAt_later m c k hk h0, update_apply, tile_eq m c ⟨k, hk⟩ b n c']
      refine IsMaxBefore.step hlt ?_
      have hprev := ih (k - 1) (by omega) (Nat.lt_of_le_of_lt (Nat.sub_le _ _) hk) b n c'
      have e1 : qrow (k - 1) (Nat.lt_of_le_of_lt (Nat.sub_le _ _) hk) b = qrow k hk b :=
        Fin.ext (by show 8 * ((k - 1) / 8) + b.val = 8 * (k / 8) + b.val; omega)
      have e2 : 128 * ((k - 1) % 8 + 1) = 128 * (k % 8) := by omega
      rw [e1, e2] at hprev
      exact hprev

/-- At the last tile of a walk the output block holds, at (b, c'), the score of query 8 (k / 8) + b against document c'. -/
theorem block_score (c : Dev nD) (k : ℕ) (hk : k < cfg0.N) (h1 : k % 8 = 7) (b : Fin 8) (c' : Fin 64) :
    (outsAt0 m c k hk).1 (ix2 b c') = score (qarr m c) (parr m c) (qrow k hk b) c' := by
  rw [blockAt_last m c k hk h1]
  refine (tokenSum_apply _ b c').trans ?_
  unfold score best
  refine Finset.sum_congr rfl fun n _ => ?_
  have h := scratch_isMax m c k hk b n c'
  rw [show 128 * (k % 8 + 1) = 1024 by omega] at h
  exact h.eq_fold

end Cert.KernelIdeal.Tiles

end
-- ==== Proof.KernelValue.lean ====
/-
  The kernel's result array: the scores, block by block.

  The output block of a query block is written back once, after the eighth tile of that block's walk, and at that moment
  it holds, at (b, c), the score of query 8 (t / 8) + b against document c: block t / 8 of the array of all scores. Every
  entry (i, c) of the 64 by 64 result lies in the block of query block i / 8, written back at point 8 (i / 8) + 7. So the
  eight written blocks tile the array and it ends holding the scores everywhere.
-/
import proofs.«102953_j12077448036546_1_alg».proof.Proof.Gen.KernelIdeal.Value
import proofs.«102953_j12077448036546_1_alg».proof.Proof.Running
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Value Cert.MaxSim

variable (m : (ℓ : Loc nD τ sig) → Buf (Elt Ideal) ℓ) (ρ : Dev nD → PrngReg)

/-- The output block after the last tile of a walk, at any of its entries: the score of the entry's query of the block against
    the entry's document. -/
theorem block_score_at (c : Dev nD) (k : ℕ) (hk : k < cfg0.N) (h1 : k % 8 = 7) (y : S8x64.Idx) :
    (outsAt0 m c k hk).1 y = score (qarr m c) (parr m c) (qrow k hk (y 0)) (y 1) :=
  (congrArg (outsAt0 m c k hk).1 (eq_ix2 y)).trans (block_score m c k hk h1 (y 0) (y 1))

/-- What a point that writes the output back writes is its block of the array of all scores. -/
theorem flushed_eq (c : Dev nD) (t : Fin cfg0.N) (hf : (cfg0.win 2).flush t = true) :
    (dats m 0 c).flushed 2 t = ((cfg0.win 2).blk t).view.read (Elt Ideal) (scores (qarr m c) (parr m c)) := by
  have h1 : t.val % 8 = 7 := (flush0_2 t).mp hf
  obtain ⟨-, -, -, -, -, -, e0, e1⟩ := idx_facts t
  rw [flushed2]
  funext j
  show (outsAt0 m c t.val t.isLt).1 j = scores (qarr m c) (parr m c) (((cfg0.win 2).blk t).view.emb j)
  refine (block_score_at m c t.val t.isLt h1 j).trans ?_
  unfold scores
  have hj0 : (j 0).val < 8 := (j 0).isLt
  have hj1 : (j 1).val < 64 := (j 1).isLt
  have a0 : qrow t.val t.isLt (j 0) = (((cfg0.win 2).blk t).view.emb j) 0 :=
    Fin.ext (by show 8 * (t.val / 8) + (j 0).val = win0_2.index t (0 : Fin 2) * 8 + 1 * (j 0).val; omega)
  have a1 : (j 1 : Fin 64) = (((cfg0.win 2).blk t).view.emb j) 1 :=
    Fin.ext (by show (j 1).val = win0_2.index t (1 : Fin 2) * 64 + 1 * (j 1).val; omega)
  rw [a0, a1]

/-- An entry of the result is in point t's block exactly when each coordinate is in the block's range on its axis. -/
theorem mem_blk (t : Fin cfg0.N) (i : S64x64.Idx) :
    i ∈ ((cfg0.win 2).blk t).view.set ↔ ∀ a : Fin 2, win0_2.index t a * S8x64.size a ≤ (i a).val ∧ (i a).val < win0_2.index t a * S8x64.size a + S8x64.size a := by
  show i ∈ ((View.whole main_v0).slice (win0_2.rect t)).set ↔ _
  rw [View.set_slice_whole, Rect.mem_set_unit]
  exact Iff.rfl

/-- Every entry (i, c) is in the block written back after the last tile of query block i / 8. -/
theorem cover (i : S64x64.Idx) :
    ∃ t : Fin cfg0.N, (cfg0.win 2).flush t = true ∧ i ∈ ((cfg0.win 2).blk t).view.set := by
  have hN : cfg0.N = 64 := N_0
  have hi0 : (i 0).val < 64 := (i 0).isLt
  have hi1 : (i 1).val < 64 := (i 1).isLt
  have ht : 8 * ((i 0).val / 8) + 7 < cfg0.N := by omega
  refine ⟨⟨8 * ((i 0).val / 8) + 7, ht⟩, (flush0_2 _).mpr (by show (8 * ((i 0).val / 8) + 7) % 8 = 7; omega), ?_⟩
  obtain ⟨-, -, -, -, -, -, e0, e1⟩ := idx_facts ⟨8 * ((i 0).val / 8) + 7, ht⟩
  have e0' : win0_2.index ⟨8 * ((i 0).val / 8) + 7, ht⟩ (0 : Fin 2) = (8 * ((i 0).val / 8) + 7) / 8 := e0
  rw [mem_blk]
  intro a
  match a with
  | ⟨0, _⟩ =>
    show win0_2.index ⟨8 * ((i 0).val / 8) + 7, ht⟩ (0 : Fin 2) * 8 ≤ (i 0).val
      ∧ (i 0).val < win0_2.index ⟨8 * ((i 0).val / 8) + 7, ht⟩ (0 : Fin 2) * 8 + 8
    omega
  | ⟨1, _⟩ =>
    show win0_2.index ⟨8 * ((i 0).val / 8) + 7, ht⟩ (1 : Fin 2) * 64 ≤ (i 1).val
      ∧ (i 1).val < win0_2.index ⟨8 * ((i 0).val / 8) + 7, ht⟩ (1 : Fin 2) * 64 + 64
    omega

/-- So the result array ends holding the scores of the query and document arrays as the region finds them. -/
theorem final (c : Dev nD) : (dats m 0 c).arrAt 2 cfg0.N = scores (qarr m c) (parr m c) :=
  (dats m 0 c).arrAt_eq_of_cover 2 (scores (qarr m c) (parr m c)) (flushed_eq m c) cover

/-- The run, read: every weakly fair execution ends with the result array at the scores of the two argument arrays as
    launched, and the arguments unchanged. -/
theorem run : θ_run defs (onTc (τ := τ) (main (F := Ideal))) ⟨m, fun _ => 0, ρ⟩ fun r => ∀ c : Dev nD,
      r.2.mem ((c : Thread nD τ).loc main_v0)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Tiles

end
-- ==== Proof.RefScores.lean ====
/-
  The reference's result, read as the mathematics.

  The reference forms every inner product of a document token with a query token, lays the products out as
  [query, document, query token, document token], takes for each query token the largest over the document's tokens, starting
  from the pattern of negative infinity, and adds those over the query's tokens, starting from zero. Read one stage at a
  time at the extended reals, that is the score: for query b and document c, the sum over the query's tokens n of the
  largest inner product token n has with a token of the document.

  The maximum is the one stage whose element is not one element of its operand. Over a single axis, and for an operation
  that is commutative and associative, it is the fold of that operation over the axis's coordinates, each put back into the
  result index at the dropped position; the maximum of two extended reals is such an operation.
-/
import proofs.«102953_j12077448036546_1_alg».proof.Proof.Gen.ReferenceIdeal.Read
import proofs.«102953_j12077448036546_1_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-! ## The products, laid out -/

/-- Under the transposition, the document operand of the product at [b, c, n, s] is read at document c, token s,
    component d. -/
theorem lidx_eq (i : S64x64x32x1024.Idx) (d : Fin 128) :
    lidx_main_v0 (idx_main_v1 i) d = ix3 (i 1) (i 3) d :=
  funext fun a => Fin.ext (by match a with | ⟨0, _⟩ => rfl | ⟨1, _⟩ => rfl | ⟨2, _⟩ => rfl)

/-- Under the transposition, the query operand of the product at [b, c, n, s] is read at query b, token n, component d. -/
theorem ridx_eq (i : S64x64x32x1024.Idx) (d : Fin 128) :
    ridx_main_v0 (idx_main_v1 i) d = ix3 (i 0) (i 2) d :=
  funext fun a => Fin.ext (by match a with | ⟨0, _⟩ => rfl | ⟨1, _⟩ => rfl | ⟨2, _⟩ => rfl)

/-- The laid-out array at [b, c, n, s] is the inner product of query token (b, n) with document token (c, s): the
    contraction over the 128 components, its two factors exchanged. -/
theorem val_main_v1_eq_sim (q : (⟨S64x32x128, .f32⟩ : BufTy).Contents (Elt Ideal))
    (p : (⟨S64x1024x128, .f32⟩ : BufTy).Contents (Elt Ideal)) (i : S64x64x32x1024.Idx) :
    val_main_v1 (F := Ideal) q p i = Cert.MaxSim.sim q p (i 0) (i 2) (i 1) (i 3) := by
  rw [val_main_v1_apply, val_main_v0_apply]
  unfold Cert.MaxSim.sim
  refine Finset.sum_congr rfl fun d _ => ?_
  rw [lidx_eq, ridx_eq, mul_comm]
  rfl

/-! ## The largest over a document's tokens -/

/-- The shape relation of the maximum over the last of the four axes, in the form that names the source index over a
    result index: the result index with the dropped coordinate put back. -/
theorem reduces_d3 : S64x64x32x1024.Reduces [3] S64x64x32 := by decide

/-- The value the maximum starts from is the pattern of negative infinity, read at the extended reals. -/
theorem val_main_cst_eq_start (i : S_.Idx) : val_main_cst (F := Ideal) i = Cert.MaxSim.start := rfl

/-- The source index over [b, c, n] with token s put back on the dropped axis is [b, c, n, s]; so the product there is
    the inner product of query token (b, n) with document token (c, s). -/
theorem val_main_v1_lift (q : (⟨S64x32x128, .f32⟩ : BufTy).Contents (Elt Ideal))
    (p : (⟨S64x1024x128, .f32⟩ : BufTy).Contents (Elt Ideal)) (j : S64x64x32.Idx) (s : Fin 1024) :
    val_main_v1 (F := Ideal) q p (reduces_d3.lift j s) = Cert.MaxSim.sim q p (j 0) (j 2) (j 1) s := by
  rw [val_main_v1_eq_sim]
  rfl

/-- The maximum stage at [b, c, n] is the largest inner product query token (b, n) has with a token of document c: the
    fold of the maximum, from the start value, over the 1024 tokens. -/
theorem val_main_v2_eq_best (q : (⟨S64x32x128, .f32⟩ : BufTy).Contents (Elt Ideal))
    (p : (⟨S64x1024x128, .f32⟩ : BufTy).Contents (Elt Ideal)) (j : S64x64x32.Idx) :
    val_main_v2 (F := Ideal) q p j = Cert.MaxSim.best q p (j 0) (j 2) (j 1) := by
  unfold val_main_v2
  rw [Host.reduce_eq_fold_single (FloatOps.maximumf (F := Ideal) (φ := .f32)) _ _
    reducesTo_S64x64x32x1024_S64x64x32_d3 reduces_d3 h_S_ j]
  unfold Cert.MaxSim.best
  exact Finset.fold_congr fun s _ => val_main_v1_lift q p j s

/-! ## The sum over a query's tokens -/

/-- The reference's result is the score at every pair of a query and a document. -/
theorem result_eq (q : (⟨Cert.ReferenceIdeal.S64x32x128, .f32⟩ : BufTy).Contents (Elt Ideal)) (p : (⟨Cert.ReferenceIdeal.S64x1024x128, .f32⟩ : BufTy).Contents (Elt Ideal)) :
    Cert.ReferenceIdeal.Read.val_main_v3 (F := Ideal) q p = Cert.MaxSim.scores q p := by
  funext j
  rw [val_main_v3_apply, val_main_cst_0_apply, Ideal.ofBits_def, Ideal.ofBits_zero_f32, zero_add]
  unfold Cert.MaxSim.scores Cert.MaxSim.score
  refine Finset.sum_congr rfl fun n _ => ?_
  rw [val_main_v2_eq_best]
  rfl

end Cert.ReferenceIdeal.RefValue

end
-- ==== Proof.lean ====
/-
  The certificate: a tiled late-interaction scoring kernel computes the same scores as its one-line reference, over the
  extended reals.

  For 64 queries of 32 tokens and 64 documents of 1024 tokens, each token a vector of 128 numbers, the score of query b against
  document c is the sum, over the query's tokens, of the largest inner product the token has with any token of the document.

  The reference forms all the inner products at once, takes each maximum over a whole document and sums over the query's
  tokens (Proof/RefScores.lean). The kernel walks a grid of 8 query blocks by 8 document tiles: at each point it multiplies
  the block's 256 query tokens with the tile's 8192 document tokens as one matrix product (its operands narrowed to a shorter
  float format first, which changes nothing over the extended reals), keeps a running maximum per (query, token, document) in a
  scratch that it resets at the first tile of each block's walk, and after the eighth tile sums the scratch over the query
  tokens into the block of the result it then writes back (Proof/Pieces.lean, Proof/Payload.lean, Proof/Running.lean,
  Proof/KernelValue.lean). A maximum taken tile by tile is the maximum over the whole document, a finite sum does not depend on
  its order, and the product of two extended reals commutes, so both programs end at one function of their arguments
  (Proof/Spec.lean). None of this needs the inputs to be finite.

  Each program's run terminates without a fault and leaves its arguments as they were: the kernels' by their generated frame
  certificates, the reference's by its generated run. The idealized kernel is the kernel's own text read over the extended
  reals, with no rewrite to account for.
-/
import proofs.«102953_j12077448036546_1_alg».proof.Defs
import proofs.«102953_j12077448036546_1_alg».proof.Proof.Gen.Kernel
import proofs.«102953_j12077448036546_1_alg».proof.Proof.Gen.Kernel.Skeleton
import proofs.«102953_j12077448036546_1_alg».proof.Proof.Gen.Kernel.Launch
import proofs.«102953_j12077448036546_1_alg».proof.Proof.Gen.Kernel.Points
import proofs.«102953_j12077448036546_1_alg».proof.Proof.Gen.Kernel.Frame
import proofs.«102953_j12077448036546_1_alg».proof.Proof.Gen.KernelIdeal
import proofs.«102953_j12077448036546_1_alg».proof.Proof.Gen.KernelIdeal.Skeleton
import proofs.«102953_j12077448036546_1_alg».proof.Proof.Gen.KernelIdeal.Launch
import proofs.«102953_j12077448036546_1_alg».proof.Proof.Gen.KernelIdeal.Points
import proofs.«102953_j12077448036546_1_alg».proof.Proof.Gen.KernelIdeal.Frame
import proofs.«102953_j12077448036546_1_alg».proof.Proof.Gen.ReferenceIdeal
import proofs.«102953_j12077448036546_1_alg».proof.Proof.Gen.Pre_finite_inputs
import proofs.«102953_j12077448036546_1_alg».proof.Proof.Gen.KernelIdeal.Value
import proofs.«102953_j12077448036546_1_alg».proof.Proof.Gen.ReferenceIdeal.Run
import proofs.«102953_j12077448036546_1_alg».proof.Proof.Gen.ReferenceIdeal.Read
import proofs.«102953_j12077448036546_1_alg».proof.Proof.KernelValue
import proofs.«102953_j12077448036546_1_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs to the end without a fault and leaves the queries and the documents unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- From memories that agree on the queries and the documents, both programs end with the result at the scores of those
    arguments: the kernel's array block by block, the reference's by reading its six operations. -/
theorem algebraic : Cert.algebraic_KernelIdeal_ReferenceIdeal := by
  intro m ρ m' ρ' _ hagree
  refine ⟨fun c => Cert.MaxSim.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
